-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S50000x64 .f32) (main_arg2 : FVec F S192x128 .f32) (main_arg3 : FVec F S128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S128x128 : Shape := ⟨2, ![128, 128]⟩
abbrev S64x128 : Shape := ⟨2, ![64, 128]⟩
abbrev S5000x128 : Shape := ⟨2, ![5000, 128]⟩
abbrev S5000x64 : Shape := ⟨2, ![5000, 64]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 34
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S192x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S64x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S192x128_S128x128_0_0 : S192x128.Slices ![0, 0] S128x128
  slices_S192x128_S64x128_128_0 : S192x128.Slices ![128, 0] S64x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S50000x192 : Shape := ⟨2, ![50000, 192]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S192x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S50000x192, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  concatenates_S50000x128_S50000x64_S50000x192_d1 : Shape.Concatenates [S50000x128, S50000x64] S50000x192 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Hidden.lean ====
/-
  The hidden layer both programs compute before the neighbourhood mean, as ONE function of the argument arrays over
  the extended reals: row `r`, column `q` of `relu(features · W₁ + anchors · W₂ + b)`, where `W₁` is the first 128 rows
  of the weight matrix and `W₂` its last 64. The kernel contracts the two row groups separately and adds the two
  partial products; the reference contracts the 192 columns of the joined matrix `[features | anchors]` at once. The
  two agree because a sum over `Fin 192` is the sum over its first 128 terms plus the sum over its last 64
  (`sum_split`): only commutativity and associativity of `+` on the extended reals, so no finiteness is needed.
-/
import Idealize.ShloMosaic.PureOps.Ideal
import Idealize.ShloMosaic.Lib.ValueIdx
import Mathlib.Algebra.BigOperators.Fin

noncomputable section

open scoped BigOperators

namespace Cert.Hidden

open Idealize.ShloMosaic Idealize.ShloMosaic.ValueIdx

/-- `relu(f · W₁ + a · W₂ + b)` at an index: the maximum with zero of the two contractions' sum plus the bias of the column. -/
def hidden (f : FVec Ideal ⟨2, ![50000, 128]⟩ .f32) (a : FVec Ideal ⟨2, ![50000, 64]⟩ .f32)
    (W₁ : FVec Ideal ⟨2, ![128, 128]⟩ .f32) (W₂ : FVec Ideal ⟨2, ![64, 128]⟩ .f32) (b : FVec Ideal ⟨1, ![128]⟩ .f32) :
    FVec Ideal ⟨2, ![50000, 128]⟩ .f32 :=
  fun i => max ((∑ k : Fin 128, f (ix2 (i 0) k) * W₁ (ix2 k (i 1))) + (∑ k : Fin 64, a (ix2 (i 0) k) * W₂ (ix2 k (i 1)))
    + b (ix1 (i 1))) (Ideal.ofBits .f32 0x00000000#32)

/-- The same at explicit coordinates. -/
theorem hidden_ix2 (f : FVec Ideal ⟨2, ![50000, 128]⟩ .f32) (a : FVec Ideal ⟨2, ![50000, 64]⟩ .f32)
    (W₁ : FVec Ideal ⟨2, ![128, 128]⟩ .f32) (W₂ : FVec Ideal ⟨2, ![64, 128]⟩ .f32) (b : FVec Ideal ⟨1, ![128]⟩ .f32)
    (r : Fin 50000) (q : Fin 128) :
    hidden f a W₁ W₂ b (ix2 r q) = max ((∑ k : Fin 128, f (ix2 r k) * W₁ (ix2 k q)) + (∑ k : Fin 64, a (ix2 r k) * W₂ (ix2 k q))
      + b (ix1 q)) (Ideal.ofBits .f32 0x00000000#32) := rfl

/-- The first 128 rows of the 192 × 128 weight matrix (those that meet the features) … -/
def topRows (W : FVec Ideal ⟨2, ![192, 128]⟩ .f32) : FVec Ideal ⟨2, ![128, 128]⟩ .f32 :=
  fun i => W (ix2 (⟨(i 0).val, by have := idx2_lt0 i; omega⟩ : Fin 192) (i 1))
/-- … and its last 64 (those that meet the anchor distances). -/
def botRows (W : FVec Ideal ⟨2, ![192, 128]⟩ .f32) : FVec Ideal ⟨2, ![64, 128]⟩ .f32 :=
  fun i => W (ix2 (⟨128 + (i 0).val, by have := idx2_lt0 i; omega⟩ : Fin 192) (i 1))

/-- The hidden layer of the four float arguments: `relu([f | a] · W + b)` with the contraction already split at column 128. -/
def hiddenLayer (f : FVec Ideal ⟨2, ![50000, 128]⟩ .f32) (a : FVec Ideal ⟨2, ![50000, 64]⟩ .f32)
    (W : FVec Ideal ⟨2, ![192, 128]⟩ .f32) (b : FVec Ideal ⟨1, ![128]⟩ .f32) : FVec Ideal ⟨2, ![50000, 128]⟩ .f32 :=
  hidden f a (topRows W) (botRows W) b

/-- A sum of 192 extended reals is the sum of the first 128 plus the sum of the last 64. -/
theorem sum_split (g : Fin 192 → EReal) :
    ∑ k : Fin 192, g k = (∑ k : Fin 128, g ⟨k.val, by omega⟩) + ∑ k : Fin 64, g ⟨128 + k.val, by omega⟩ :=
  Fin.sum_univ_add (a := 128) (b := 64) g

end Cert.Hidden

end
-- ==== Proof.BlockValue.lean ====
/-
  What the kernel body stores, read at one entry of the 5000 × 128 output block: with `x` the block of features,
  `y` the block of anchor distances, `u` and `v` the two groups of weight rows and `β` the bias,
  entry `(p, q)` is `max (Σ_k x[p,k]·u[k,q] + Σ_k y[p,k]·v[k,q] + β[q]) 0`. The narrowing to bf16 before each product is the
  identity on extended reals, each matrix product into a zero accumulator is the plain sum over the contracted axis,
  and the bias row is broadcast down the rows.
-/
import proofs.«168862_j69793218560330_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The product with the first 128 weight rows -/

theorem lhs_feat_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feat_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs_feat_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_feat_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the features' product is the sum over the 128 feature columns. -/
theorem featProduct_apply {φ₁ φ₂ : FTy} (x : FVec Ideal S5000x128 φ₁) (u : FVec Ideal S128x128 φ₂) (p : Fin 5000) (q : Fin 128) :
    matmul dot_S5000x128_S128x128_S5000x128_1_0_0_1_n_n none x u (constant S5000x128 .f32 0x00000000#32) (ix2 p q)
      = ∑ k : Fin 128, x (ix2 p k) * u (ix2 k q) := by
  show FloatOps.matmul _ _ _ _ _ _ = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_feat_0 _ _).trans hk
    | ⟨1, _⟩ => exact rhs_feat_1 _ _)
  rw [el, er]

/-! ## The product with the last 64 weight rows -/

theorem lhs_anch_0 (i : S5000x128.Idx) (κ : dot_S5000x64_S64x128_S5000x128_1_0_0_1_n_n.contr.Idx) :
    (dot_S5000x64_S64x128_S5000x128_1_0_0_1_n_n.lhsIdx i κ 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_anch_1 (i : S5000x128.Idx) (κ : dot_S5000x64_S64x128_S5000x128_1_0_0_1_n_n.contr.Idx) :
    (dot_S5000x64_S64x128_S5000x128_1_0_0_1_n_n.lhsIdx i κ 1).val = (κ ⟨0, by decide⟩).val :=
  dot_S5000x64_S64x128_S5000x128_1_0_0_1_n_n.lhsIdx_val_of_single rfl i κ
theorem rhs_anch_0 (i : S5000x128.Idx) (κ : dot_S5000x64_S64x128_S5000x128_1_0_0_1_n_n.contr.Idx) :
    (dot_S5000x64_S64x128_S5000x128_1_0_0_1_n_n.rhsIdx i κ 0).val = (κ ⟨0, by decide⟩).val :=
  dot_S5000x64_S64x128_S5000x128_1_0_0_1_n_n.rhsIdx_val_of_single rfl i κ
theorem rhs_anch_1 (i : S5000x128.Idx) (κ : dot_S5000x64_S64x128_S5000x128_1_0_0_1_n_n.contr.Idx) :
    (dot_S5000x64_S64x128_S5000x128_1_0_0_1_n_n.rhsIdx i κ 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry `(p, q)` of the anchor distances' product is the sum over the 64 anchor columns. -/
theorem anchProduct_apply {φ₁ φ₂ : FTy} (y : FVec Ideal S5000x64 φ₁) (v : FVec Ideal S64x128 φ₂) (p : Fin 5000) (q : Fin 128) :
    matmul dot_S5000x64_S64x128_S5000x128_1_0_0_1_n_n none y v (constant S5000x128 .f32 0x00000000#32) (ix2 p q)
      = ∑ k : Fin 64, y (ix2 p k) * v (ix2 k q) := by
  show FloatOps.matmul _ _ _ _ _ _ = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs_anch_0 _ _
    | ⟨1, _⟩ => exact (lhs_anch_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs_anch_0 _ _).trans hk
    | ⟨1, _⟩ => exact rhs_anch_1 _ _)
  rw [el, er]

/-! ## The bias row -/

/-- The bias vector given a leading unit axis and broadcast down the 5000 rows reads, at `(p, q)`, its entry `q`. -/
theorem biasRows_apply {α : Type} (β : S128.Idx → α) (p : Fin 5000) (q : Fin 128) :
    broadcastTo S5000x128 (shapeCast S1x128 β shapeCasts_S128_S1x128) broadcasts_S1x128_S5000x128 (ix2 p q) = β (ix1 q) := by
  rw [broadcastTo_apply _ broadcasts_S1x128_S5000x128 (ix2 p q) (ix2 (0 : Fin 1) q) (fun a => by
    match a with
    | ⟨0, _⟩ => rfl
    | ⟨1, _⟩ => rfl)]
  rw [shapeCast_addUnit_apply]
  exact congrArg β (funext fun a => by match a with | ⟨0, _⟩ => rfl)

/-! ## The stored value -/

/-- THE BODY'S ONE STORE at entry `(p, q)` of the block. -/
theorem stored_apply (x : Vec Ideal S5000x128 .f32) (y : Vec Ideal S5000x64 .f32) (u : Vec Ideal S128x128 .f32)
    (v : Vec Ideal S64x128 .f32) (β : Vec Ideal S128 .f32) (p : Fin 5000) (q : Fin 128) :
    k0_pay1 (F := Ideal) x y u v β (ix2 p q)
      = max ((∑ k : Fin 128, x (ix2 p k) * u (ix2 k q)) + (∑ k : Fin 64, y (ix2 p k) * v (ix2 k q)) + β (ix1 q))
          (Ideal.ofBits .f32 0x00000000#32) := by
  unfold k0_pay1
  rw [maximumf_apply, addf_apply, addf_apply, featProduct_apply, anchProduct_apply, biasRows_apply, broadcast_apply]
  simp only [shapeCast_self, truncf_apply]
  rfl

end Cert.KernelIdeal.BlockValue

end
-- ==== Proof.HiddenArray.lean ====
/-
  After the kernel's region the output array holds the hidden layer of the arrays the region finds. Grid point `t`
  works on rows `5000·t … 5000·t + 4999`: its features and anchor blocks are those rows of the two inputs, the two
  weight blocks and the bias are whole arrays, and what it writes back is that row range of the hidden layer. The ten
  row ranges tile the 50000 rows, so the whole array is the hidden layer.
-/
import proofs.«168862_j69793218560330_1_alg».proof.Proof.Gen.KernelIdeal.Frame
import proofs.«168862_j69793218560330_1_alg».proof.Proof.Hidden
import proofs.«168862_j69793218560330_1_alg».proof.Proof.BlockValue

set_option maxRecDepth 16384

noncomputable section

open scoped BigOperators

namespace Cert.KernelIdeal.HiddenArray

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The five arrays the region reads, as it finds them, at their literal types. -/
abbrev feats (c : Dev nD) : FVec Ideal S50000x128 .f32 := V m c main_arg0
abbrev anchs (c : Dev nD) : FVec Ideal S50000x64 .f32 := V m c main_arg1
abbrev topW (c : Dev nD) : FVec Ideal S128x128 .f32 := V m c main_v0
abbrev botW (c : Dev nD) : FVec Ideal S64x128 .f32 := V m c main_v1
abbrev bias (c : Dev nD) : FVec Ideal S128 .f32 := V m c main_arg3

/-- The hidden layer of those arrays. -/
def hiddenOf (c : Dev nD) : FVec Ideal S50000x128 .f32 :=
  Cert.Hidden.hidden (feats m c) (anchs m c) (topW m c) (botW m c) (bias m c)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the ten grid points: the two row-blocked inputs move with the output, the weights and the
    bias stay at block zero, and the output's block row is at most 9. -/
theorem blockIndices : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every one of the ten row ranges is some point's. -/
theorem blockOnto : ∀ (b : Fin 10), ∃ t : Fin cfg0.N, win0_5.index t = ![b.val, 0] :=
  (by decide +kernel : ∀ (b : Fin 10), ∃ t : Fin grid0.N, win0_5.index t = ![b.val, 0])

/-- Entry `(p, q)` of what point `t` stores is the hidden layer at row `r = 5000·(block row of t) + p`, column `q`. -/
theorem stored_entry (c : Dev nD) (t : Fin cfg0.N) (p : Fin 5000) (q : Fin 128) (r : Fin 50000)
    (hr : r.val = win0_5.index t (0 : Fin 2) * 5000 + 1 * p.val) :
    k0_pay1 (F := Ideal) (iblk m c 0 t) (iblk m c 1 t) (iblk m c 2 t) (iblk m c 3 t) (iblk m c 4 t) (ix2 p q)
      = hiddenOf m c (ix2 r q) := by
  refine (BlockValue.stored_apply (iblk m c 0 t) (iblk m c 1 t) (iblk m c 2 t) (iblk m c 3 t) (iblk m c 4 t) p q).trans ?_
  unfold hiddenOf
  rw [Cert.Hidden.hidden_ix2]
  obtain ⟨e00, e01, e10, e11, e20, e21, e30, e31, e40, e51, e50⟩ := blockIndices t
  have h0 : ∀ k : Fin 128, iblk m c 0 t (ix2 p k) = feats m c (ix2 r k) := fun k => by
    show V m c main_arg0 (((cfg0.win 0).blk t).view.emb (ix2 p k)) = V m c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  have h1 : ∀ k : Fin 64, iblk m c 1 t (ix2 p k) = anchs m c (ix2 r k) := fun k => by
    show V m c main_arg1 (((cfg0.win 1).blk t).view.emb (ix2 p k)) = V m c main_arg1 (ix2 r k)
    refine congrArg _ (funext fun a => Fin.ext ?_)
    match a with
    | ⟨0, _⟩ => show win0_1.index t (0 : Fin 2) * 5000 + 1 * p.val = r.val; omega
    | ⟨1, _⟩ => show win0_1.index t (1 : Fin 2) * 64 + 1 * k.val = k.val; omega
  have h2 : ∀ k : Fin 128, iblk m c 2 t (ix2 k q) = topW m c (ix2 k q) := fun k => by
    show V m c main_v0 (((cfg0.win 2).blk t).view.emb (ix2 k q)) = V m c main_v0 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have h3 : ∀ k : Fin 64, iblk m c 3 t (ix2 k q) = botW m c (ix2 k q) := fun k => by
    show V m c main_v1 (((cfg0.win 3).blk t).view.emb (ix2 k q)) = V m c main_v1 (ix2 k q)
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  have h4 : iblk m c 4 t (ix1 q) = bias m c (ix1 q) := by
    show V m c main_arg3 (((cfg0.win 4).blk t).view.emb (ix1 q)) = V m c main_arg3 (ix1 q)
    refine congrArg _ (funext fun a => Fin.ext ?_)
    match a with
    | ⟨0, _⟩ => show win0_4.index t (0 : Fin 1) * 128 + 1 * q.val = q.val; omega
  refine congrArg (fun z => max z _) ?_
  refine congrArg₂ (· + ·) (congrArg₂ (· + ·) (Finset.sum_congr rfl fun k _ => ?_) (Finset.sum_congr rfl fun k _ => ?_)) h4
  · rw [h0 k, h2 k]
  · rw [h1 k, h3 k]

/-- WHAT POINT `t` WRITES BACK is its row range of the hidden layer. -/
theorem flushed_eq (c : Dev nD) (t : Fin cfg0.N) :
    (dats m 0 c).flushed 5 t = ((cfg0.win 5).blk t).view.read (Elt Ideal) (hiddenOf m c) := by
  show (cfg0.win 5).cut (grid0.coords t) ((dats m 0 c).after 5 t) = _
  rw [after0_5]
  unfold out0_5
  rw [View.canon_unit_zero zeros2]
  simp only [View.ld_unit_zero (S := S5000x128) zeros2, View.ld_unit_zero (S := S5000x64) zeros2,
    View.ld_unit_zero (S := S128x128) zeros2, View.ld_unit_zero (S := S64x128) zeros2, View.ld_unit_zero (S := S128) zeros1]
  funext j
  obtain ⟨p, q, rfl⟩ : ∃ (p : Fin 5000) (q : Fin 128), j = ix2 p q := ⟨j 0, j 1, eq_ix2 j⟩
  obtain ⟨e00, e01, e10, e11, e20, e21, e30, e31, e40, e51, e50⟩ := blockIndices t
  have hlt : win0_5.index t (0 : Fin 2) * 5000 + 1 * p.val < 50000 := by have := p.isLt; omega
  have hemb : ((cfg0.win 5).blk t).view.emb (ix2 p q) = ix2 (⟨win0_5.index t (0 : Fin 2) * 5000 + 1 * p.val, hlt⟩ : Fin 50000) q := by
    funext a; apply Fin.ext
    match a with
    | ⟨0, _⟩ => rfl
    | ⟨1, _⟩ => show win0_5.index t (1 : Fin 2) * 128 + 1 * q.val = q.val; omega
  show k0_pay1 (F := Ideal) _ _ _ _ _ (ix2 p q) = hiddenOf m c (((cfg0.win 5).blk t).view.emb (ix2 p q))
  rw [hemb]
  exact stored_entry m c t p q _ rfl

/-- A row-column index is in point `t`'s block iff each coordinate is in the block's range on its axis. -/
theorem mem_rows (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2).slice (win0_5.rect t)).set ↔ _
  rw [View.set_slice_whole, Rect.mem_set_unit]
  exact Iff.rfl

/-- Every index of the output array is in the block of the point whose row range holds its row. -/
theorem rows_cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := blockOnto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_rows]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region is the hidden layer of the arrays the region found. -/
theorem output_eq (c : Dev nD) : (dats m 0 c).arrAt 5 cfg0.N = hiddenOf m c :=
  (dats m 0 c).arrAt_eq_of_cover 5 (hiddenOf m c) (fun t _ => flushed_eq m c t) rows_cover

end Cert.KernelIdeal.HiddenArray

end
-- ==== Proof.Neighbour.lean ====
/-
  The second half of both programs, as ONE function of the hidden layer `h` and the two edge arrays: the mean over each
  node's incoming edges of the source node's hidden row. Source indices below zero are wrapped by adding the node count,
  row `src[e]` of `h` is gathered for every edge `e`, the gathered rows are summed into their destination rows
  (a scatter-add into zeros), the in-degree is the same scatter-add of ones, and each summed row is divided by
  `max(degree, 1)`. Kernel and reference print this stretch operation for operation alike, so it is never opened: the two
  results are this function at two hidden layers that are proved equal.
-/
import proofs.«168862_j69793218560330_1_alg».proof.Proof.Gen.KernelIdeal
import Idealize.ShloMosaic.PureOps.Ideal

noncomputable section

namespace Cert.KernelIdeal

open Idealize.ShloMosaic Cert.KernelIdeal.Facts₀

/-- The mean of `h[src[e]]` over the edges `e` with `dst[e] = n`, for every node `n` (zero for a node with no incoming edge). -/
def neighbourMean (h : (⟨S50000x128, .f32⟩ : BufTy).Contents (Elt Ideal)) (src dst : (⟨S800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

end Cert.KernelIdeal

end
-- ==== Proof.KernelRun.lean ====
/-
  The idealized kernel's run, read: its result is the neighbourhood mean of the hidden layer of its arguments. The region
  leaves the hidden layer of what it found in its output array; what it found are the features, the anchor distances and
  the bias as launched and the two row groups of the weight matrix, which the two slices before the region cut out; and the
  operations after the region are the neighbourhood mean of that array and the two edge arrays, which nothing has written.
-/
import proofs.«168862_j69793218560330_1_alg».proof.Proof.HiddenArray
import proofs.«168862_j69793218560330_1_alg».proof.Proof.Neighbour

set_option maxRecDepth 16384

noncomputable section

namespace Cert.KernelIdeal.KernelRun

open Cert.KernelIdeal Cert.KernelIdeal.Gen Cert.KernelIdeal.HiddenArray Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The slice `[0:128, 0:128]` of the weights is their first 128 rows. -/
theorem topW_eq (c : Dev nD) : topW m c = Cert.Hidden.topRows (m ((c : Thread nD τ).loc main_arg2)) := by
  have e : (V m c main_v0 : FVec Ideal S128x128 .f32) = extractStridedSlice S128x128 ![0, 0] (m ((c : Thread nD τ).loc main_arg2)) Facts₀.slices_S192x128_S128x128_0_0 := by
    show StableHlo.after hostOps0 (fun b => m (c, b)) (Proc.devRef .tc main_v0) = _
    after_results
  show (V m c main_v0 : FVec Ideal S128x128 .f32) = _
  rw [e]
  funext i
  exact extractStridedSlice_apply _ _ _ i _ (fun a => by
    match a with
    | ⟨0, _⟩ => show (i 0).val = 0 + (i 0).val; omega
    | ⟨1, _⟩ => show (i 1).val = 0 + (i 1).val; omega)

/-- The slice `[128:192, 0:128]` of the weights is their last 64 rows. -/
theorem botW_eq (c : Dev nD) : botW m c = Cert.Hidden.botRows (m ((c : Thread nD τ).loc main_arg2)) := by
  have e : (V m c main_v1 : FVec Ideal S64x128 .f32) = extractStridedSlice S64x128 ![128, 0] (m ((c : Thread nD τ).loc main_arg2)) Facts₀.slices_S192x128_S64x128_128_0 := by
    show StableHlo.after hostOps0 (fun b => m (c, b)) (Proc.devRef .tc main_v1) = _
    after_results
  show (V m c main_v1 : FVec Ideal S64x128 .f32) = _
  rw [e]
  funext i
  exact extractStridedSlice_apply _ _ _ i _ (fun a => by
    match a with
    | ⟨0, _⟩ => show 128 + (i 0).val = 128 + (i 0).val; rfl
    | ⟨1, _⟩ => show (i 1).val = 0 + (i 1).val; omega)

/-- The hidden layer the region leaves is the hidden layer of the launch contents of the four float arguments. -/
theorem hiddenOf_eq (c : Dev nD) : hiddenOf m c = Cert.Hidden.hiddenLayer (m ((c : Thread nD τ).loc main_arg0)) (m ((c : Thread nD τ).loc main_arg1))
    (m ((c : Thread nD τ).loc main_arg2)) (m ((c : Thread nD τ).loc main_arg3)) := by
  unfold hiddenOf Cert.Hidden.hiddenLayer
  rw [topW_eq, botW_eq]
  show Cert.Hidden.hidden (V m c main_arg0) (V m c main_arg1) _ _ (V m c main_arg3) = _
  rw [V_main_arg0, V_main_arg1, V_main_arg3]

set_option maxHeartbeats 2000000 in
/-- THE RESULT: the operations after the region compute the neighbourhood mean of the output array. -/
theorem result_eq (c : Dev nD) :
    Pipeline.afterTail₀ cfgs (dats m) 0 (V0 m) [hostOps1] c main_v21
      = neighbourMean (hiddenOf m c) (m ((c : Thread nD τ).loc main_arg4)) (m ((c : Thread nD τ).loc main_arg5)) := by
  unfold Pipeline.afterTail₀
  simp only [List.flatten_cons, List.flatten_nil, List.append_nil]
  after_results_simp
  have h2 : Pipeline.withArrays (cfgs 0).spec c (V0 m c) (fun w => (dats m 0 c).arrAt w (cfgs 0).N) (Proc.devRef .tc main_v2) = hiddenOf m c :=
    (Pipeline.withArrays_arr spec0 launch0.win.arr_inj c _ _ 5).trans (output_eq m c)
  have h4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5) = m ((c : Thread nD τ).loc main_arg5) :=
    (Pipeline.withArrays_of_ne _ c (V0 m c) _ main_arg5 (by exact (by decide : ∀ w, Pipeline.arrRef spec0 w ≠ main_arg5))).trans (V_main_arg5 m c)
  show neighbourMean _ _ _ = _
  rw [h2, h4, h5]

/-- THE RUN of the idealized kernel: its result is the neighbourhood mean of the hidden layer of its arguments, which end unchanged. -/
theorem run : θ_run defs (onTc (τ := τ) (main (F := Ideal))) ⟨m, fun _ => 0, ρ⟩ (fun r => ∀ c : Dev nD,
      r.2.mem ((c.tc : Thread nD τ).loc main_v21)
        = neighbourMean (Cert.Hidden.hiddenLayer (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v21 (Pipeline.mem_restRefs_of main_v21 (by decide) (by decide))).trans (result_eq m c)).trans
        (congrArg (fun z => neighbourMean z _ _) (hiddenOf_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelRun

end
-- ==== Proof.RefHidden.lean ====
/-
  The reference's hidden layer is the same function of the arguments. It joins features and anchor distances along the
  columns into one 50000 × 192 matrix and contracts its 192 columns against the weight rows; column `k < 128` of the joined
  matrix is column `k` of the features and column `128 + k` is column `k` of the anchor distances, so the sum over 192
  columns, cut at 128, is the features' contraction with the first 128 weight rows plus the anchors' with the last 64.
-/
import proofs.«168862_j69793218560330_1_alg».proof.Proof.Gen.ReferenceIdeal.Read
import proofs.«168862_j69793218560330_1_alg».proof.Proof.Hidden

noncomputable section

open scoped BigOperators

namespace Cert.ReferenceIdeal.RefHidden

open Cert.ReferenceIdeal Cert.ReferenceIdeal.Gen Cert.ReferenceIdeal.Read Idealize.ShloMosaic Idealize.ShloMosaic.ValueIdx

/-- Column `k < 128` of the joined matrix is the features' column `k`. -/
theorem joined_left (x0 : (⟨S50000x128, .f32⟩ : BufTy).Contents (Elt Ideal)) (x1 : (⟨S50000x64, .f32⟩ : BufTy).Contents (Elt Ideal))
    (r : Fin 50000) (k : Fin 128) :
    val_main_v0 (F := Ideal) x0 x1 (ix2 r (⟨k.val, by omega⟩ : Fin 192)) = x0 (ix2 r k) := by
  unfold val_main_v0
  exact concatenate_pair_apply_left (t := S50000x192) (s₁ := S50000x128) (s₂ := S50000x64) (1 : Fin 2) x0 x1 Facts₀.concatenates_S50000x128_S50000x64_S50000x192_d1 _ rfl (ix2 r k) (fun b => by
    match b with
    | ⟨0, _⟩ => rfl
    | ⟨1, _⟩ => rfl)

/-- Column `128 + k` of the joined matrix is the anchor distances' column `k`. -/
theorem joined_right (x0 : (⟨S50000x128, .f32⟩ : BufTy).Contents (Elt Ideal)) (x1 : (⟨S50000x64, .f32⟩ : BufTy).Contents (Elt Ideal))
    (r : Fin 50000) (k : Fin 64) :
    val_main_v0 (F := Ideal) x0 x1 (ix2 r (⟨128 + k.val, by omega⟩ : Fin 192)) = x1 (ix2 r k) := by
  unfold val_main_v0
  exact concatenate_pair_apply_right (t := S50000x192) (s₁ := S50000x128) (s₂ := S50000x64) (1 : Fin 2) x0 x1 Facts₀.concatenates_S50000x128_S50000x64_S50000x192_d1 _ rfl rfl (ix2 r k) (fun b hb => by
    match b, hb with
    | ⟨0, _⟩, _ => rfl
    | ⟨1, _⟩, hb => exact absurd rfl hb) (by show k.val + 128 = 128 + k.val; omega)

/-- THE REFERENCE'S HIDDEN LAYER is `Cert.Hidden.hiddenLayer` of its four float arguments. -/
theorem hidden_eq (x0 : (⟨S50000x128, .f32⟩ : BufTy).Contents (Elt Ideal)) (x1 : (⟨S50000x64, .f32⟩ : BufTy).Contents (Elt Ideal))
    (x2 : (⟨S192x128, .f32⟩ : BufTy).Contents (Elt Ideal)) (x3 : (⟨S128, .f32⟩ : BufTy).Contents (Elt Ideal)) :
    val_main_v5 (F := Ideal) x0 x1 x2 x3 = Cert.Hidden.hiddenLayer x0 x1 x2 x3 := by
  funext i
  obtain ⟨r, q, rfl⟩ : ∃ (r : Fin 50000) (q : Fin 128), i = ix2 r q := ⟨i 0, i 1, eq_ix2 i⟩
  rw [val_main_v5_apply, val_main_v4_apply, val_main_v1_apply, val_main_v3_apply, val_main_v2_apply, val_main_call0_v0_apply,
    val_main_call0_cst_apply, Cert.Hidden.sum_split]
  have hl : ∀ k : Fin 192, lidx_main_v1 (ix2 r q) k = (ix2 r k : S50000x192.Idx) := fun k => funext fun a => by
    match a with
    | ⟨0, _⟩ => rfl
    | ⟨1, _⟩ => rfl
  have hw : ∀ k : Fin 192, ridx_main_v1 (ix2 r q) k = (ix2 k q : S192x128.Idx) := fun k => funext fun a => by
    match a with
    | ⟨0, _⟩ => rfl
    | ⟨1, _⟩ => rfl
  have hb : idx_main_v2 (idx_main_v3 (ix2 r q)) = (ix1 q : S128.Idx) := funext fun a => by
    match a with
    | ⟨0, _⟩ => rfl
  simp only [hl, hw, hb, joined_left, joined_right]
  rfl

end Cert.ReferenceIdeal.RefHidden

end
-- ==== Proof.RefRun.lean ====
/-
  The reference's result is the neighbourhood mean of its hidden layer: after the hidden layer the reference's
  operations are, one for one, those of the kernel's host stretch (the same dimension records over the same literal
  shapes), so its last stage is that one function at `relu([features | anchors] · W + b)`, and that matrix is the hidden
  layer the kernel computes (the contraction over 192 columns split at column 128).
-/
import proofs.«168862_j69793218560330_1_alg».proof.Proof.RefHidden
import proofs.«168862_j69793218560330_1_alg».proof.Proof.Neighbour

noncomputable section

namespace Cert.ReferenceIdeal.RefRun

open Cert.ReferenceIdeal Cert.ReferenceIdeal.Gen Cert.ReferenceIdeal.Read Idealize.ShloMosaic

/-- The reference's last stage, at any six argument arrays, is the neighbourhood mean of the hidden layer. -/
theorem result_eq (x0 : (⟨S50000x128, .f32⟩ : BufTy).Contents (Elt Ideal)) (x1 : (⟨S50000x64, .f32⟩ : BufTy).Contents (Elt Ideal))
    (x2 : (⟨S192x128, .f32⟩ : BufTy).Contents (Elt Ideal)) (x3 : (⟨S128, .f32⟩ : BufTy).Contents (Elt Ideal))
    (x4 x5 : (⟨S800000, .i32⟩ : BufTy).Contents (Elt Ideal)) :
    val_main_v24 (F := Ideal) x0 x1 x2 x3 x4 x5
      = Cert.KernelIdeal.neighbourMean (Cert.Hidden.hiddenLayer x0 x1 x2 x3) x4 x5 := by
  rw [← Cert.ReferenceIdeal.RefHidden.hidden_eq]
  rfl

end Cert.ReferenceIdeal.RefRun

end
-- ==== Proof.lean ====
/-
  The certificate of a graph layer: `out = mean over incoming edges of h[src]`, with `h = relu([features | anchors] · W + b)`.

  The kernel computes `h` in a pallas_call over ten blocks of 5000 rows — the features against the first 128 weight rows,
  the anchor distances against the last 64, the two products added, then the bias and the maximum with zero — and leaves
  the gather, the two scatter-adds and the division to the host. The reference computes `h` on the host with ONE
  contraction over the 192 columns of the joined matrix and then runs the same gather, scatter-adds and division.

  Over the extended reals the two hidden layers are one function (`Cert.Hidden.hiddenLayer`): narrowing to bf16 is the
  identity, a matrix product into a zero accumulator is the plain sum, and a sum over 192 terms is the sum of its first
  128 plus the sum of its last 64 — associativity and commutativity of addition only, so the precondition is never opened.
  The stretch after the hidden layer is the same function in both programs (`Cert.KernelIdeal.neighbourMean`) and is
  never opened either. The three frames are the generated ones (the reference's is its generated run with the result
  dropped); no operation was rewritten by the idealization, so `preserves` is trivial.
-/
import proofs.«168862_j69793218560330_1_alg».proof.Defs
import proofs.«168862_j69793218560330_1_alg».proof.Proof.Gen.Kernel
import proofs.«168862_j69793218560330_1_alg».proof.Proof.Gen.Kernel.Skeleton
import proofs.«168862_j69793218560330_1_alg».proof.Proof.Gen.Kernel.Launch
import proofs.«168862_j69793218560330_1_alg».proof.Proof.Gen.Kernel.Points
import proofs.«168862_j69793218560330_1_alg».proof.Proof.Gen.Kernel.Frame
import proofs.«168862_j69793218560330_1_alg».proof.Proof.Gen.KernelIdeal
import proofs.«168862_j69793218560330_1_alg».proof.Proof.Gen.KernelIdeal.Skeleton
import proofs.«168862_j69793218560330_1_alg».proof.Proof.Gen.KernelIdeal.Launch
import proofs.«168862_j69793218560330_1_alg».proof.Proof.Gen.KernelIdeal.Points
import proofs.«168862_j69793218560330_1_alg».proof.Proof.Gen.KernelIdeal.Frame
import proofs.«168862_j69793218560330_1_alg».proof.Proof.Gen.ReferenceIdeal
import proofs.«168862_j69793218560330_1_alg».proof.Proof.Gen.Pre_finite_inputs
import proofs.«168862_j69793218560330_1_alg».proof.Proof.Gen.ReferenceIdeal.Run
import proofs.«168862_j69793218560330_1_alg».proof.Proof.Gen.ReferenceIdeal.Read
import proofs.«168862_j69793218560330_1_alg».proof.Proof.KernelRun
import proofs.«168862_j69793218560330_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end at the neighbourhood mean of the hidden layer of the (agreeing) arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v24_eq _ _ _ _ _ _).trans (Cert.ReferenceIdeal.RefRun.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
